-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x512 .f32) (main_arg3 : FVec F S512 .f32) (main_arg4 : FVec F S512x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x512 : Shape := ⟨2, ![1, 512]⟩
abbrev S50000x512 : Shape := ⟨2, ![50000, 512]⟩
abbrev S2000x128 : Shape := ⟨2, ![2000, 128]⟩
abbrev S2000x512 : Shape := ⟨2, ![2000, 512]⟩
abbrev S1x128 : Shape := ⟨2, ![1, 128]⟩

abbrev nBuf : Space → Nat
  | .hbm => 81
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S850000x1, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x512, .f32⟩
  | .hbm, ⟨62, _⟩ => ⟨S50000x512, .f32⟩
  | .hbm, ⟨63, _⟩ => ⟨S50000x128, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x128, .f32⟩
  | .hbm, ⟨73, _⟩ => ⟨S850000x128, .f32⟩
  | .hbm, ⟨74, _⟩ => ⟨S850000x128, .f32⟩
  | .hbm, ⟨75, _⟩ => ⟨S_, .f32⟩
  | .hbm, ⟨76, _⟩ => ⟨S50000x128, .f32⟩
  | .hbm, ⟨77, _⟩ => ⟨S850000x1, .i32⟩
  | .hbm, ⟨78, _⟩ => ⟨S50000x128, .f32⟩
  | .hbm, ⟨79, _⟩ => ⟨S1x128, .f32⟩
  | .hbm, ⟨80, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S2000x512, .f32⟩
  | .local _ .vmem, ⟨8, _⟩ => ⟨S512x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x128_S512x128_0_0 : ∀ a, (![0, 0] : Fin 2 → Nat) a + S512x128.size a ≤ S512x128.size a
  h_S512x128 : 0 < S512x128.numel
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x512_S2000x512_1_0_0_1_n_n_wf : DotDims.WF S2000x128 S128x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v43) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v58) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x512 : Shape := ⟨2, ![50000, 512]⟩
abbrev S1x512 : Shape := ⟨2, ![1, 512]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S850000x1, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S50000x512, .f32⟩
  | .hbm, ⟨62, _⟩ => ⟨S1x512, .f32⟩
  | .hbm, ⟨63, _⟩ => ⟨S50000x512, .f32⟩
  | .hbm, ⟨64, _⟩ => ⟨S50000x512, .f32⟩
  | .hbm, ⟨65, _⟩ => ⟨S_, .f32⟩
  | .hbm, ⟨66, _⟩ => ⟨S50000x512, .f32⟩
  | .hbm, ⟨67, _⟩ => ⟨S50000x512, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call2_cst : Ref sig .tc := ⟨.hbm, 87, rfl⟩
abbrev main_call2_v0 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x512_S50000x512_1_0_0_1_n_n_wf : DotDims.WF S50000x128 S128x512 S50000x512 [1] [0] [0] [1] [] []
  dot_S50000x512_S512x128_S50000x128_1_0_0_1_n_n_wf : DotDims.WF S50000x512 S512x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.Spec.lean ====
/-
  The two-layer graph convolution's dense stages as whole-array functions over the extended reals, index by index.

  Both programs aggregate node features along the edges (gather the source rows, scale by the symmetric degree
  normalisation, scatter-add into the destination rows) with the same host operations; between and after the two
  aggregations they differ only in WHERE the dense arithmetic runs: the reference applies it to the whole
  50000-row arrays, the kernel to 25 row tiles of 2000 rows. Row `r` of each stage's result depends on row `r` of
  its input alone, so the tiles restrict one whole-array function. Those functions are stated here:

    layer 1:  H[r, j] = max (Σ_k A[r, k] · W1[k, j] + b1[j]) 0        (`denseBiasRelu`)
    layer 2:  P[r, j] = Σ_k H[r, k] · W2[k, j]                         (`dense`)
    output :  O[r, j] = max (Z[r, j] + b2[j]) 0                        (`biasRelu`)

  At the exact extended-real values a bf16 rounding of an operand is the identity and a matrix product into a zero
  accumulator is the plain sum over the contracted axis, so the kernel's MXU stages and the host's `dot_general`
  are these same sums term by term: no algebraic law beyond that is used, and no finiteness.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The literal two-axis and one-axis shapes the stages are stated over. -/
abbrev Sh2 (r c : Nat) : Shape := ⟨2, ![r, c]⟩
abbrev Sh1 (n : Nat) : Shape := ⟨1, ![n]⟩

/-- The float zero both programs clamp against, kept as its bit pattern (the same word on both sides). -/
abbrev zeroF : Ideal .f32 := Ideal.ofBits .f32 0x00000000#32

/-- Layer 1 at row `r`, column `j`: the row's features contracted with column `j` of the weights, plus the bias
    entry of that column, clamped below at zero. -/
def denseBiasReluAt (A : FVec Ideal (Sh2 50000 128) .f32) (W : FVec Ideal (Sh2 128 512) .f32) (b : FVec Ideal (Sh1 512) .f32)
    (r : Fin 50000) (j : Fin 512) : Ideal .f32 :=
  max ((∑ k : Fin 128, A (ix2 r k) * W (ix2 k j)) + b (ix1 j)) zeroF

/-- Layer 1 as a whole array. -/
def denseBiasRelu (A : FVec Ideal (Sh2 50000 128) .f32) (W : FVec Ideal (Sh2 128 512) .f32) (b : FVec Ideal (Sh1 512) .f32) :
    FVec Ideal (Sh2 50000 512) .f32 :=
  fun i => denseBiasReluAt A W b (i 0) (i 1)

/-- Layer 2's projection at row `r`, column `j`: the hidden row contracted with column `j` of the weights. -/
def denseAt (H : FVec Ideal (Sh2 50000 512) .f32) (W : FVec Ideal (Sh2 512 128) .f32) (r : Fin 50000) (j : Fin 128) : Ideal .f32 :=
  ∑ k : Fin 512, H (ix2 r k) * W (ix2 k j)

/-- Layer 2's projection as a whole array. -/
def dense (H : FVec Ideal (Sh2 50000 512) .f32) (W : FVec Ideal (Sh2 512 128) .f32) : FVec Ideal (Sh2 50000 128) .f32 :=
  fun i => denseAt H W (i 0) (i 1)

/-- The output stage at row `r`, column `j`: the aggregated entry plus the bias entry of its column, clamped at zero. -/
def biasReluAt (Z : FVec Ideal (Sh2 50000 128) .f32) (b : FVec Ideal (Sh1 128) .f32) (r : Fin 50000) (j : Fin 128) : Ideal .f32 :=
  max (Z (ix2 r j) + b (ix1 j)) zeroF

/-- The output stage as a whole array. -/
def biasRelu (Z : FVec Ideal (Sh2 50000 128) .f32) (b : FVec Ideal (Sh1 128) .f32) : FVec Ideal (Sh2 50000 128) .f32 :=
  fun i => biasReluAt Z b (i 0) (i 1)

/-- A one-row array read as a vector. -/
def rowVec {n : Nat} (v : FVec Ideal (Sh2 1 n) .f32) : FVec Ideal (Sh1 n) .f32 := fun i => v (ix2 (0 : Fin 1) (i 0))

theorem rowVec_apply {n : Nat} (v : FVec Ideal (Sh2 1 n) .f32) (j : Fin n) : rowVec v (ix1 j) = v (ix2 (0 : Fin 1) j) := rfl

/-- An index of a two-axis array with known coordinates is the pair of them. -/
theorem idx2_eq {n0 n1 : Nat} (i : (Sh2 n0 n1).Idx) (r : Fin n0) (j : Fin n1) (h0 : (i 0).val = r.val) (h1 : (i 1).val = j.val) : i = ix2 r j := by
  funext a
  match a with
  | ⟨0, _⟩ => exact Fin.ext h0
  | ⟨1, _⟩ => exact Fin.ext h1

theorem denseBiasRelu_apply (A : FVec Ideal (Sh2 50000 128) .f32) (W : FVec Ideal (Sh2 128 512) .f32) (b : FVec Ideal (Sh1 512) .f32)
    (i : (Sh2 50000 512).Idx) (r : Fin 50000) (j : Fin 512) (h0 : (i 0).val = r.val) (h1 : (i 1).val = j.val) :
    denseBiasRelu A W b i = denseBiasReluAt A W b r j := by
  rw [idx2_eq i r j h0 h1]; rfl

theorem dense_apply (H : FVec Ideal (Sh2 50000 512) .f32) (W : FVec Ideal (Sh2 512 128) .f32)
    (i : (Sh2 50000 128).Idx) (r : Fin 50000) (j : Fin 128) (h0 : (i 0).val = r.val) (h1 : (i 1).val = j.val) :
    dense H W i = denseAt H W r j := by
  rw [idx2_eq i r j h0 h1]; rfl

theorem biasRelu_apply (Z : FVec Ideal (Sh2 50000 128) .f32) (b : FVec Ideal (Sh1 128) .f32)
    (i : (Sh2 50000 128).Idx) (r : Fin 50000) (j : Fin 128) (h0 : (i 0).val = r.val) (h1 : (i 1).val = j.val) :
    biasRelu Z b i = biasReluAt Z b r j := by
  rw [idx2_eq i r j h0 h1]; rfl

end Cert.Spec

end
-- ==== Proof.Tile0.lean ====
/-
  Region 0 (layer 1 on a row tile): what the 25 write-backs of the first pallas_call leave in its result array.

  At grid point `t` the body loads rows `2000·t … 2000·t + 1999` of the aggregated features (window 0), the whole
  weight matrix (window 1) and the bias as one row (window 2), and stores `max (tile · W + bias) 0`. Read at
  (p, j) of the tile this is entry (2000·t + p, j) of `Spec.denseBiasRelu` of the arrays the region finds; the 25
  tiles cover the 50000 rows, so the array after the region IS that function.
-/
import proofs.«133054_j75488345194658_1_alg».proof.Proof.Gen.KernelIdeal.Frame
import proofs.«133054_j75488345194658_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tile0

open Cert.KernelIdeal Cert.KernelIdeal.Gen Cert.Spec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The tile's matrix product at an entry -/

theorem lhs_0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem lhs_1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
theorem rhs_0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
theorem rhs_1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- Entry (p, j) of the tile's product into the zero accumulator: row `p` of the tile against column `j` of the weights. -/
theorem mm_apply (a : FVec Ideal S2000x128 .bf16) (w : FVec Ideal S128x512 .bf16) (p : Fin 2000) (j : Fin 512) :
    matmul (F := Ideal) dot_S2000x128_S128x512_S2000x512_1_0_0_1_n_n none a w (constant S2000x512 .f32 0x00000000#32) (ix2 p j)
      = ∑ k : Fin 128, a (ix2 p k) * w (ix2 k j) := by
  simp only [matmul]
  rw [Ideal.matmul_constant_zero_apply, ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p j) ((contrEquiv1 dot_S2000x128_S128x512_S2000x512_1_0_0_1_n_n 128 rfl rfl).symm k) = ix2 p k := funext fun ax => Fin.ext (by
    match ax with
    | ⟨0, _⟩ => exact lhs_0 _ _
    | ⟨1, _⟩ => exact (lhs_1 _ _).trans hk)
  have er : dot_S2000x128_S128x512_S2000x512_1_0_0_1_n_n.rhsIdx (ix2 p j) ((contrEquiv1 dot_S2000x128_S128x512_S2000x512_1_0_0_1_n_n 128 rfl rfl).symm k) = ix2 k j := funext fun ax => Fin.ext (by
    match ax with
    | ⟨0, _⟩ => exact (rhs_0 _ _).trans hk
    | ⟨1, _⟩ => exact rhs_1 _ _)
  rw [el, er]

/-- The body's stored value at (p, j) of the tile, from its three loaded blocks. -/
theorem pay_apply (x0 : Vec Ideal S2000x128 .f32) (x1 : Vec Ideal S128x512 .f32) (x2 : Vec Ideal S1x512 .f32) (p : Fin 2000) (j : Fin 512) :
    k0_pay1 x0 x1 x2 (ix2 p j) = max ((∑ k : Fin 128, x0 (ix2 p k) * x1 (ix2 k j)) + x2 (ix2 (0 : Fin 1) j)) zeroF := by
  unfold k0_pay1
  simp only [maximumf_apply, addf_apply, broadcast_apply, shapeCast_self]
  rw [mm_apply, broadcastTo_1b_ab_apply]
  rfl

/-! ## The windows' blocks as rows of the arrays the region finds -/

variable (V : (c : Dev nD) → (b : Ref sig .tc) → Buf (Elt Ideal) ((c : Thread nD τ).loc b))

/-- Over the 25 points: the row-tiled windows (the features, the result) sit at block (t, 0), the weights and the bias at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the feature tile at point `t` is row `2000·t + p` of the aggregated features. -/
theorem blk0_apply (c : Dev nD) (t : Fin cfg0.N) (p : Fin 2000) (k : Fin 128) (r : Fin 50000) (hr : r.val = 2000 * t.val + p.val) :
    (iblk0 V c 0 t : Vec Ideal S2000x128 .f32) (ix2 p k) = (V c main_v43 : Vec Ideal S50000x128 .f32) (ix2 r k) := by
  obtain ⟨e0, e1, -⟩ := idx_facts t
  unfold iblk0
  rw [View.read_apply]
  show V c main_v43 _ = V c main_v43 _
  congr 1
  funext a
  apply Fin.ext
  match a with
  | ⟨0, _⟩ => show win0_0.index t 0 * 2000 + 1 * p.val = r.val; rw [e0, hr]; omega
  | ⟨1, _⟩ => show win0_0.index t 1 * 128 + 1 * k.val = k.val; rw [e1]; omega

/-- The weight window's block is the whole weight matrix at every point. -/
theorem blk1_apply (c : Dev nD) (t : Fin cfg0.N) (k : Fin 128) (j : Fin 512) :
    (iblk0 V c 1 t : Vec Ideal S128x512 .f32) (ix2 k j) = (V c main_arg2 : Vec Ideal S128x512 .f32) (ix2 k j) := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 128 + 1 * k.val = k.val; rw [e0]; omega
  | ⟨1, _⟩ => show win0_1.index t 1 * 512 + 1 * j.val = j.val; rw [e1]; omega

/-- The bias window's block is the whole one-row bias at every point. -/
theorem blk2_apply (c : Dev nD) (t : Fin cfg0.N) (j : Fin 512) :
    (iblk0 V c 2 t : Vec Ideal S1x512 .f32) (ix2 (0 : Fin 1) j) = (V c main_v44 : Vec Ideal S1x512 .f32) (ix2 (0 : Fin 1) j) := by
  obtain ⟨-, -, -, -, e0, e1, -⟩ := idx_facts t
  unfold iblk0
  rw [View.read_apply]
  show V c main_v44 _ = V c main_v44 _
  congr 1
  funext a
  apply Fin.ext
  match a with
  | ⟨0, _⟩ => show win0_2.index t 0 * 1 + 1 * 0 = 0; rw [e0]
  | ⟨1, _⟩ => show win0_2.index t 1 * 512 + 1 * j.val = j.val; rw [e1]; omega

/-! ## What the region leaves -/

/-- Layer 1 of the arrays the region finds: the aggregated features, the weights, the bias row. -/
abbrev result (c : Dev nD) : FVec Ideal (Sh2 50000 512) .f32 :=
  denseBiasRelu (V c main_v43) (V c main_arg2) (rowVec (V c main_v44))

/-- WHAT POINT `t` WRITES BACK is rows `2000·t … 2000·t + 1999` of `result`. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x512) hz, View.ld_unit_zero (S := S1x512) hz]
  funext y
  obtain ⟨p, j, rfl⟩ : ∃ (p : Fin 2000) (j : Fin 512), y = ix2 p j := ⟨y 0, y 1, eq_ix2 y⟩
  obtain ⟨-, -, -, -, -, -, e0, e1⟩ := idx_facts t
  have hN : t.val < 25 := by have h := t.isLt; have e : cfg0.N = 25 := N_0; omega
  show k0_pay1 (iblk0 V c 0 t) (iblk0 V c 1 t) (iblk0 V c 2 t) (ix2 p j) = result V c (((cfg0.win 3).blk t).view.emb (ix2 p j))
  refine (pay_apply (iblk0 V c 0 t) (iblk0 V c 1 t) (iblk0 V c 2 t) p j).trans ?_
  refine Eq.trans ?_ (denseBiasRelu_apply _ _ _ (((cfg0.win 3).blk t).view.emb (ix2 p j)) ⟨2000 * t.val + p.val, by omega⟩ j
    (by show win0_3.index t 0 * 2000 + 1 * p.val = 2000 * t.val + p.val; rw [e0]; omega)
    (by show win0_3.index t 1 * 512 + 1 * j.val = j.val; rw [e1]; omega)).symm
  unfold denseBiasReluAt
  rw [blk2_apply V c t j, rowVec_apply]
  congr 2
  exact Finset.sum_congr rfl fun k _ => by rw [blk0_apply V c t p k ⟨2000 * t.val + p.val, by omega⟩ rfl, blk1_apply V c t k j]

/-- An index of the result array is in point `t`'s block iff each coordinate is in the block's range on its axis. -/
theorem mem_blk (t : Fin cfg0.N) (i : S50000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v45).slice (win0_3.rect t)).set ↔ _
  rw [View.set_slice_whole, Rect.mem_set_unit]
  exact Iff.rfl

/-- The 25 row tiles cover the result array: row `r` is in the tile of point `r / 2000`. -/
theorem cover (i : S50000x512.Idx) : ∃ t : Fin cfg0.N, (cfg0.win 3).flush t = true ∧ i ∈ ((cfg0.win 3).blk t).view.set := by
  have hi0 : (i 0).val < 50000 := (i 0).isLt
  have hi1 : (i 1).val < 512 := (i 1).isLt
  have hN : cfg0.N = 25 := N_0
  refine ⟨⟨(i 0).val / 2000, by rw [hN]; omega⟩, flush0_3 _, ?_⟩
  rw [mem_blk]
  obtain ⟨-, -, -, -, -, -, e0, e1⟩ := idx_facts ⟨(i 0).val / 2000, by rw [hN]; omega⟩
  intro a
  match a with
  | ⟨0, _⟩ =>
    show win0_3.index ⟨(i 0).val / 2000, _⟩ 0 * 2000 ≤ (i 0).val ∧ (i 0).val < win0_3.index ⟨(i 0).val / 2000, _⟩ 0 * 2000 + 2000
    rw [e0]; show (i 0).val / 2000 * 2000 ≤ (i 0).val ∧ (i 0).val < (i 0).val / 2000 * 2000 + 2000; omega
  | ⟨1, _⟩ =>
    show win0_3.index ⟨(i 0).val / 2000, _⟩ 1 * 512 ≤ (i 1).val ∧ (i 1).val < win0_3.index ⟨(i 0).val / 2000, _⟩ 1 * 512 + 512
    rw [e1]; omega

/-- THE ARRAY after the region: layer 1 of the arrays the region finds. -/
theorem final (c : Dev nD) : (dat0 V c).arrAt 3 cfg0.N = result V c :=
  (dat0 V c).arrAt_eq_of_cover 3 (result V c) (fun t _ => flushed_eq V c t) cover

end Cert.KernelIdeal.Tile0

end
-- ==== Proof.Tile1.lean ====
/-
  Region 1 (layer 2's projection on a row tile): what the 25 write-backs of the second pallas_call leave in its result array.

  At grid point `t` the body loads rows `2000·t … 2000·t + 1999` of the hidden activations (window 0) and the whole
  weight matrix (window 1) and stores their product. Read at (p, j) of the tile this is entry (2000·t + p, j) of
  `Spec.dense` of the arrays the region finds; the 25 tiles cover the 50000 rows.
-/
import proofs.«133054_j75488345194658_1_alg».proof.Proof.Gen.KernelIdeal.Frame
import proofs.«133054_j75488345194658_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Tile1

open Cert.KernelIdeal Cert.KernelIdeal.Gen Cert.Spec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The tile's matrix product at an entry -/

theorem lhs_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem rhs_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem rhs_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- Entry (p, j) of the tile's product into the zero accumulator: row `p` of the tile against column `j` of the weights. -/
theorem mm_apply (a : FVec Ideal S2000x512 .bf16) (w : FVec Ideal S512x128 .bf16) (p : Fin 2000) (j : Fin 128) :
    matmul (F := Ideal) dot_S2000x512_S512x128_S2000x128_1_0_0_1_n_n none a w (constant S2000x128 .f32 0x00000000#32) (ix2 p j)
      = ∑ k : Fin 512, a (ix2 p k) * w (ix2 k j) := by
  simp only [matmul]
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p j) ((contrEquiv1 dot_S2000x512_S512x128_S2000x128_1_0_0_1_n_n 512 rfl rfl).symm k) = ix2 p k := funext fun ax => Fin.ext (by
    match ax with
    | ⟨0, _⟩ => exact lhs_0 _ _
    | ⟨1, _⟩ => exact (lhs_1 _ _).trans hk)
  have er : dot_S2000x512_S512x128_S2000x128_1_0_0_1_n_n.rhsIdx (ix2 p j) ((contrEquiv1 dot_S2000x512_S512x128_S2000x128_1_0_0_1_n_n 512 rfl rfl).symm k) = ix2 k j := funext fun ax => Fin.ext (by
    match ax with
    | ⟨0, _⟩ => exact (rhs_0 _ _).trans hk
    | ⟨1, _⟩ => exact rhs_1 _ _)
  rw [el, er]

/-- The body's stored value at (p, j) of the tile, from its two loaded blocks. -/
theorem pay_apply (x0 : Vec Ideal S2000x512 .f32) (x1 : Vec Ideal S512x128 .f32) (p : Fin 2000) (j : Fin 128) :
    k1_pay1 x0 x1 (ix2 p j) = ∑ k : Fin 512, x0 (ix2 p k) * x1 (ix2 k j) := by
  unfold k1_pay1
  simp only [shapeCast_self]
  rw [mm_apply]
  rfl

/-! ## The windows' blocks as rows of the arrays the region finds -/

variable (V : (c : Dev nD) → (b : Ref sig .tc) → Buf (Elt Ideal) ((c : Thread nD τ).loc b))

/-- Over the 25 points: the row-tiled windows (the activations, the result) sit at block (t, 0), the weights at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the activation tile at point `t` is row `2000·t + p` of the hidden activations. -/
theorem blk0_apply (c : Dev nD) (t : Fin cfg1.N) (p : Fin 2000) (k : Fin 512) (r : Fin 50000) (hr : r.val = 2000 * t.val + p.val) :
    (iblk1 V c 0 t : Vec Ideal S2000x512 .f32) (ix2 p k) = (V c main_v45 : Vec Ideal S50000x512 .f32) (ix2 r k) := by
  obtain ⟨e0, e1, -⟩ := idx_facts t
  unfold iblk1
  rw [View.read_apply]
  show V c main_v45 _ = V c main_v45 _
  congr 1
  funext a
  apply Fin.ext
  match a with
  | ⟨0, _⟩ => show win1_0.index t 0 * 2000 + 1 * p.val = r.val; rw [e0, hr]; omega
  | ⟨1, _⟩ => show win1_0.index t 1 * 512 + 1 * k.val = k.val; rw [e1]; omega

/-- The weight window's block is the whole weight matrix at every point. -/
theorem blk1_apply (c : Dev nD) (t : Fin cfg1.N) (k : Fin 512) (j : Fin 128) :
    (iblk1 V c 1 t : Vec Ideal S512x128 .f32) (ix2 k j) = (V c main_arg4 : Vec Ideal S512x128 .f32) (ix2 k j) := by
  obtain ⟨-, -, e0, e1, -⟩ := idx_facts t
  unfold iblk1
  rw [View.read_apply]
  show V c main_arg4 _ = V c main_arg4 _
  congr 1
  funext a
  apply Fin.ext
  match a with
  | ⟨0, _⟩ => show win1_1.index t 0 * 512 + 1 * k.val = k.val; rw [e0]; omega
  | ⟨1, _⟩ => show win1_1.index t 1 * 128 + 1 * j.val = j.val; rw [e1]; omega

/-! ## What the region leaves -/

/-- Layer 2's projection of the arrays the region finds: the hidden activations, the weights. -/
abbrev result (c : Dev nD) : FVec Ideal (Sh2 50000 128) .f32 :=
  dense (V c main_v45) (V c main_arg4)

/-- WHAT POINT `t` WRITES BACK is rows `2000·t … 2000·t + 1999` of `result`. -/
theorem flushed_eq (c : Dev nD) (t : Fin cfg1.N) :
    (dat1 V c).flushed 2 t = ((cfg1.win 2).blk t).view.read (Elt Ideal) (result V c) := by
  show (cfg1.win 2).cut (grid1.coords t) ((dat1 V c).after 2 t) = _
  rw [after1_2]
  unfold out1_2
  rw [View.canon_unit_zero hz]
  simp only [View.ld_unit_zero (S := S2000x512) hz, View.ld_unit_zero (S := S512x128) hz]
  funext y
  obtain ⟨p, j, rfl⟩ : ∃ (p : Fin 2000) (j : Fin 128), y = ix2 p j := ⟨y 0, y 1, eq_ix2 y⟩
  obtain ⟨-, -, -, -, e0, e1⟩ := idx_facts t
  have hN : t.val < 25 := by have h := t.isLt; have e : cfg1.N = 25 := N_1; omega
  show k1_pay1 (iblk1 V c 0 t) (iblk1 V c 1 t) (ix2 p j) = result V c (((cfg1.win 2).blk t).view.emb (ix2 p j))
  refine (pay_apply (iblk1 V c 0 t) (iblk1 V c 1 t) p j).trans ?_
  refine Eq.trans ?_ (dense_apply _ _ (((cfg1.win 2).blk t).view.emb (ix2 p j)) ⟨2000 * t.val + p.val, by omega⟩ j
    (by show win1_2.index t 0 * 2000 + 1 * p.val = 2000 * t.val + p.val; rw [e0]; omega)
    (by show win1_2.index t 1 * 128 + 1 * j.val = j.val; rw [e1]; omega)).symm
  unfold denseAt
  exact Finset.sum_congr rfl fun k _ => by rw [blk0_apply V c t p k ⟨2000 * t.val + p.val, by omega⟩ rfl, blk1_apply V c t k j]

/-- An index of the result array is in point `t`'s block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v46).slice (win1_2.rect t)).set ↔ _
  rw [View.set_slice_whole, Rect.mem_set_unit]
  exact Iff.rfl

/-- The 25 row tiles cover the result array: row `r` is in the tile of point `r / 2000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_2 _, ?_⟩
  rw [mem_blk]
  obtain ⟨-, -, -, -, e0, e1⟩ := idx_facts ⟨(i 0).val / 2000, by rw [hN]; omega⟩
  intro a
  match a with
  | ⟨0, _⟩ =>
    show win1_2.index ⟨(i 0).val / 2000, _⟩ 0 * 2000 ≤ (i 0).val ∧ (i 0).val < win1_2.index ⟨(i 0).val / 2000, _⟩ 0 * 2000 + 2000
    rw [e0]; show (i 0).val / 2000 * 2000 ≤ (i 0).val ∧ (i 0).val < (i 0).val / 2000 * 2000 + 2000; omega
  | ⟨1, _⟩ =>
    show win1_2.index ⟨(i 0).val / 2000, _⟩ 1 * 128 ≤ (i 1).val ∧ (i 1).val < win1_2.index ⟨(i 0).val / 2000, _⟩ 1 * 128 + 128
    rw [e1]; omega

/-- THE ARRAY after the region: layer 2's projection of the arrays the region finds. -/
theorem final (c : Dev nD) : (dat1 V c).arrAt 2 cfg1.N = result V c :=
  (dat1 V c).arrAt_eq_of_cover 2 (result V c) (fun t _ => flushed_eq V c t) cover

end Cert.KernelIdeal.Tile1

end
-- ==== Proof.Tile2.lean ====
/-
  Region 2 (the output stage on a row tile): what the 25 write-backs of the third pallas_call leave in its result array.

  At grid point `t` the body loads rows `2000·t … 2000·t + 1999` of the second aggregation (window 0) and the bias as
  one row (window 1) and stores `max (tile + bias) 0`. Read at (p, j) of the tile this is entry (2000·t + p, j) of
  `Spec.biasRelu` of the arrays the region finds; the 25 tiles cover the 50000 rows.
-/
import proofs.«133054_j75488345194658_1_alg».proof.Proof.Gen.KernelIdeal.Frame
import proofs.«133054_j75488345194658_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Tile2

open Cert.KernelIdeal Cert.KernelIdeal.Gen Cert.Spec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's stored value at (p, j) of the tile, from its two loaded blocks. -/
theorem pay_apply (x0 : Vec Ideal S2000x128 .f32) (x1 : Vec Ideal S1x128 .f32) (p : Fin 2000) (j : Fin 128) :
    k2_pay1 x0 x1 (ix2 p j) = max (x0 (ix2 p j) + x1 (ix2 (0 : Fin 1) j)) zeroF := by
  unfold k2_pay1
  simp only [maximumf_apply, addf_apply, broadcast_apply, shapeCast_self]
  rw [broadcastTo_1b_ab_apply]
  rfl

/-! ## The windows' blocks as rows of the arrays the region finds -/

variable (V : (c : Dev nD) → (b : Ref sig .tc) → Buf (Elt Ideal) ((c : Thread nD τ).loc b))

/-- Over the 25 points: the row-tiled windows (the aggregation, the result) sit at block (t, 0), the bias at (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the aggregation tile at point `t` is row `2000·t + p` of the second aggregation. -/
theorem blk0_apply (c : Dev nD) (t : Fin cfg2.N) (p : Fin 2000) (j : Fin 128) (r : Fin 50000) (hr : r.val = 2000 * t.val + p.val) :
    (iblk2 V c 0 t : Vec Ideal S2000x128 .f32) (ix2 p j) = (V c main_v58 : Vec Ideal S50000x128 .f32) (ix2 r j) := by
  obtain ⟨e0, e1, -⟩ := idx_facts t
  unfold iblk2
  rw [View.read_apply]
  show V c main_v58 _ = V c main_v58 _
  congr 1
  funext a
  apply Fin.ext
  match a with
  | ⟨0, _⟩ => show win2_0.index t 0 * 2000 + 1 * p.val = r.val; rw [e0, hr]; omega
  | ⟨1, _⟩ => show win2_0.index t 1 * 128 + 1 * j.val = j.val; rw [e1]; omega

/-- The bias window's block is the whole one-row bias at every point. -/
theorem blk1_apply (c : Dev nD) (t : Fin cfg2.N) (j : Fin 128) :
    (iblk2 V c 1 t : Vec Ideal S1x128 .f32) (ix2 (0 : Fin 1) j) = (V c main_v59 : Vec Ideal S1x128 .f32) (ix2 (0 : Fin 1) j) := by
  obtain ⟨-, -, e0, e1, -⟩ := idx_facts t
  unfold iblk2
  rw [View.read_apply]
  show V c main_v59 _ = V c main_v59 _
  congr 1
  funext a
  apply Fin.ext
  match a with
  | ⟨0, _⟩ => show win2_1.index t 0 * 1 + 1 * 0 = 0; rw [e0]
  | ⟨1, _⟩ => show win2_1.index t 1 * 128 + 1 * j.val = j.val; rw [e1]; omega

/-! ## What the region leaves -/

/-- The output stage of the arrays the region finds: the second aggregation, the bias row. -/
abbrev result (c : Dev nD) : FVec Ideal (Sh2 50000 128) .f32 :=
  biasRelu (V c main_v58) (rowVec (V c main_v59))

/-- WHAT POINT `t` WRITES BACK is rows `2000·t … 2000·t + 1999` of `result`. -/
theorem flushed_eq (c : Dev nD) (t : Fin cfg2.N) :
    (dat2 V c).flushed 2 t = ((cfg2.win 2).blk t).view.read (Elt Ideal) (result V c) := by
  show (cfg2.win 2).cut (grid2.coords t) ((dat2 V c).after 2 t) = _
  rw [after2_2]
  unfold out2_2
  rw [View.canon_unit_zero hz]
  simp only [View.ld_unit_zero (S := S2000x128) hz, View.ld_unit_zero (S := S1x128) hz]
  funext y
  obtain ⟨p, j, rfl⟩ : ∃ (p : Fin 2000) (j : Fin 128), y = ix2 p j := ⟨y 0, y 1, eq_ix2 y⟩
  obtain ⟨-, -, -, -, e0, e1⟩ := idx_facts t
  have hN : t.val < 25 := by have h := t.isLt; have e : cfg2.N = 25 := N_2; omega
  show k2_pay1 (iblk2 V c 0 t) (iblk2 V c 1 t) (ix2 p j) = result V c (((cfg2.win 2).blk t).view.emb (ix2 p j))
  refine (pay_apply (iblk2 V c 0 t) (iblk2 V c 1 t) p j).trans ?_
  refine Eq.trans ?_ (biasRelu_apply _ _ (((cfg2.win 2).blk t).view.emb (ix2 p j)) ⟨2000 * t.val + p.val, by omega⟩ j
    (by show win2_2.index t 0 * 2000 + 1 * p.val = 2000 * t.val + p.val; rw [e0]; omega)
    (by show win2_2.index t 1 * 128 + 1 * j.val = j.val; rw [e1]; omega)).symm
  unfold biasReluAt
  rw [blk1_apply V c t j, rowVec_apply, blk0_apply V c t p j ⟨2000 * t.val + p.val, by omega⟩ rfl]

/-- An index of the result array is in point `t`'s block iff each coordinate is in the block's range on its axis. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v60).slice (win2_2.rect t)).set ↔ _
  rw [View.set_slice_whole, Rect.mem_set_unit]
  exact Iff.rfl

/-- The 25 row tiles cover the result array: row `r` is in the tile of point `r / 2000`. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_2 _, ?_⟩
  rw [mem_blk]
  obtain ⟨-, -, -, -, e0, e1⟩ := idx_facts ⟨(i 0).val / 2000, by rw [hN]; omega⟩
  intro a
  match a with
  | ⟨0, _⟩ =>
    show win2_2.index ⟨(i 0).val / 2000, _⟩ 0 * 2000 ≤ (i 0).val ∧ (i 0).val < win2_2.index ⟨(i 0).val / 2000, _⟩ 0 * 2000 + 2000
    rw [e0]; show (i 0).val / 2000 * 2000 ≤ (i 0).val ∧ (i 0).val < (i 0).val / 2000 * 2000 + 2000; omega
  | ⟨1, _⟩ =>
    show win2_2.index ⟨(i 0).val / 2000, _⟩ 1 * 128 ≤ (i 1).val ∧ (i 1).val < win2_2.index ⟨(i 0).val / 2000, _⟩ 1 * 128 + 128
    rw [e1]; omega

/-- THE ARRAY after the region: the output stage of the arrays the region finds. -/
theorem final (c : Dev nD) : (dat2 V c).arrAt 2 cfg2.N = result V c :=
  (dat2 V c).arrAt_eq_of_cover 2 (result V c) (fun t _ => flushed_eq V c t) cover

end Cert.KernelIdeal.Tile2

end
-- ==== Proof.HostChain.lean ====
/-
  The host operations around the three regions, read through the run's fold of buffer contents.

  Before region 0 the kernel's program builds the edge list with self loops, the symmetric degree normalisation and
  the first aggregation (gather the source rows, scale, scatter-add into the destination rows) with exactly the host
  operations the reference uses; between regions 1 and 2 it aggregates again with the same operations. So each
  buffer the regions read holds the reference's stage of the same name, as a function of the arguments: the two
  terms are one term, operation by operation. The arguments' buffers and the biases' one-row views are read the same way.
-/
import proofs.«133054_j75488345194658_1_alg».proof.Proof.Gen.KernelIdeal.Frame
import proofs.«133054_j75488345194658_1_alg».proof.Proof.RefRead
import Idealize.ShloMosaic.Lib.StableHlo.Run

set_option maxRecDepth 16384

noncomputable section

namespace Cert.KernelIdeal.Chain

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At region 0's entry -/

/-- The source endpoints with self loops. -/
theorem W3_v3 (c : Dev nD) :
    W3 m ρ c (Proc.devRef .tc main_v3) = val_main_v3 (F := F) (m ((c.tc : Thread nD τ).loc main_arg1)) := by
  show StableHlo.after hostOps0_2 (StableHlo.after hostOps0_1 (StableHlo.after hostOps0 (W0 m ρ c))) (Proc.devRef .tc main_v3) = _
  after_results_simp <;> rfl

/-- The destination endpoints with self loops. -/
theorem W3_v6 (c : Dev nD) :
    W3 m ρ c (Proc.devRef .tc main_v6) = val_main_v6 (F := F) (m ((c.tc : Thread nD τ).loc main_arg1)) := by
  show StableHlo.after hostOps0_2 (StableHlo.after hostOps0_1 (StableHlo.after hostOps0 (W0 m ρ c))) (Proc.devRef .tc main_v6) = _
  after_results_simp <;> rfl

/-- The per-edge normalisation, as a column. -/
theorem W3_v31 (c : Dev nD) :
    W3 m ρ c (Proc.devRef .tc main_v31) = val_main_v31 (F := F) (m ((c.tc : Thread nD τ).loc main_arg1)) := by
  show StableHlo.after hostOps0_2 (StableHlo.after hostOps0_1 (StableHlo.after hostOps0 (W0 m ρ c))) (Proc.devRef .tc main_v31) = _
  after_results_simp <;> rfl

/-- The first aggregation: what region 0 reads as its features. -/
theorem W3_v43 (c : Dev nD) :
    W3 m ρ c (Proc.devRef .tc main_v43) = val_main_v43 (F := F) (m ((c.tc : Thread nD τ).loc main_arg0)) (m ((c.tc : Thread nD τ).loc main_arg1)) := by
  show StableHlo.after hostOps0_2 (StableHlo.after hostOps0_1 (StableHlo.after hostOps0 (W0 m ρ c))) (Proc.devRef .tc main_v43) = _
  after_results_simp <;> rfl

/-- The first layer's weights, untouched. -/
theorem W3_arg2 (c : Dev nD) :
    W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp <;> rfl

/-- The second layer's weights, untouched. -/
theorem W3_arg4 (c : Dev nD) :
    W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp <;> rfl

/-- The second layer's bias, untouched. -/
theorem W3_arg5 (c : Dev nD) :
    W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp <;> rfl

/-- The first layer's bias viewed as one row. -/
theorem W3_v44 (c : Dev nD) :
    W3 m ρ c (Proc.devRef .tc main_v44) = shapeCast S1x512 (m ((c.tc : Thread nD τ).loc main_arg3)) shapeCasts_S512_S1x512 := by
  show StableHlo.after hostOps0_2 (StableHlo.after hostOps0_1 (StableHlo.after hostOps0 (W0 m ρ c))) (Proc.devRef .tc main_v44) = _
  after_results_simp <;> rfl

/-! ## Between the regions: what no region writes is what region 0 found -/

/-- A buffer that is no array of region 0's or region 1's windows holds at region 1's exit what it held at region 0's entry. -/
theorem W5_of_W3 (c : Dev nD) (b : Ref sig .tc) (h0 : ∀ w, Pipeline.arrRef spec0 w ≠ b) (h1 : ∀ w, Pipeline.arrRef spec1 w ≠ b) :
    W5 m ρ c (Proc.devRef .tc b) = W3 m ρ c (Proc.devRef .tc b) :=
  (W5_of_ne m ρ c b h1).trans (W4_of_ne m ρ c b h0)

/-- The second layer's weights as region 1 finds them. -/
theorem W4_arg4 (c : Dev nD) : W4 m ρ c (Proc.devRef .tc main_arg4) = m ((c.tc : Thread nD τ).loc main_arg4) :=
  (W4_of_ne m ρ c main_arg4 (by decide)).trans (W3_arg4 m ρ c)

/-! ## At region 2's entry -/

/-- The second aggregation, of whatever region 1 left in its result array `P`: the reference's second scatter-add
    applied to `P` in place of its own projection. The endpoints and the normalisation are the buffers computed before
    region 0, which neither region writes. -/
theorem W6_v58 (c : Dev nD) (x0 : (⟨Cert.ReferenceIdeal.S50000x128, .f32⟩ : BufTy).Contents (Elt F)) (x2 : (⟨Cert.ReferenceIdeal.S128x512, .f32⟩ : BufTy).Contents (Elt F))
    (x3 : (⟨Cert.ReferenceIdeal.S512, .f32⟩ : BufTy).Contents (Elt F)) (x4 : (⟨Cert.ReferenceIdeal.S512x128, .f32⟩ : BufTy).Contents (Elt F))
    (hP : W5 m ρ c (Proc.devRef .tc main_v46) = val_main_v49 (F := F) x0 (m ((c.tc : Thread nD τ).loc main_arg1)) x2 x3 x4) :
    W6 m ρ c (Proc.devRef .tc main_v58) = val_main_v61 (F := F) x0 (m ((c.tc : Thread nD τ).loc main_arg1)) x2 x3 x4 := by
  show StableHlo.after hostOps2 (W5 m ρ c) (Proc.devRef .tc main_v58) = _
  after_results_simp
  rw [hP, W5_of_W3 m ρ c main_v3 (by decide) (by decide), W5_of_W3 m ρ c main_v6 (by decide) (by decide),
    W5_of_W3 m ρ c main_v31 (by decide) (by decide), W3_v3, W3_v6, W3_v31]
  rfl

/-- The second layer's bias viewed as one row, as region 2 finds it. -/
theorem W6_v59 (c : Dev nD) :
    W6 m ρ c (Proc.devRef .tc main_v59) = shapeCast S1x128 (m ((c.tc : Thread nD τ).loc main_arg5)) shapeCasts_S128_S1x128 := by
  show StableHlo.after hostOps2 (W5 m ρ c) (Proc.devRef .tc main_v59) = _
  after_results_simp
  rw [W5_of_W3 m ρ c main_arg5 (by decide) (by decide), W3_arg5]
  rfl

end Cert.KernelIdeal.Chain

end
-- ==== Proof.RefValue.lean ====
/-
  The reference's dense stages are the whole-array functions of `Spec`: its `dot_general`s are the sums over the
  contracted axis, its biases are broadcast along the rows, and its ReLU is the maximum with the float zero.
  The aggregations between them are left as the stages they are (`val_main_v43`, `val_main_v61`).
-/
import proofs.«133054_j75488345194658_1_alg».proof.Proof.RefRead
import proofs.«133054_j75488345194658_1_alg».proof.Proof.Spec

noncomputable section

namespace Cert.ReferenceIdeal.RefValue

open Cert.ReferenceIdeal Cert.ReferenceIdeal.ReadP Cert.Spec
open Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S128x512, .f32⟩ : BufTy).Contents (Elt Ideal)) (x3 : (⟨S512, .f32⟩ : BufTy).Contents (Elt Ideal))
  (x4 : (⟨S512x128, .f32⟩ : BufTy).Contents (Elt Ideal)) (x5 : (⟨S128, .f32⟩ : BufTy).Contents (Elt Ideal))

/-- Layer 1: the first aggregation times the weights, plus the bias along the rows, clamped at zero. -/
theorem v48_eq : val_main_v48 (F := Ideal) x0 x1 x2 x3 = denseBiasRelu (val_main_v43 (F := Ideal) x0 x1) x2 x3 := by
  funext i
  obtain ⟨r, j, rfl⟩ : ∃ (r : Fin 50000) (j : Fin 512), i = ix2 r j := ⟨i 0, i 1, eq_ix2 i⟩
  rw [val_main_v48_apply, val_main_v47_apply, val_main_v44_apply, val_main_v46_apply, val_main_v45_apply, val_main_call1_v0_apply,
    val_main_call1_cst_apply]
  have el : ∀ k : Fin 128, lidx_main_v44 (ix2 r j) k = ix2 r k := fun k => funext fun a => Fin.ext (by
    match a with
    | ⟨0, _⟩ => rfl
    | ⟨1, _⟩ => rfl)
  have er : ∀ k : Fin 128, ridx_main_v44 (ix2 r j) k = ix2 k j := fun k => funext fun a => Fin.ext (by
    match a with
    | ⟨0, _⟩ => rfl
    | ⟨1, _⟩ => rfl)
  have eb : idx_main_v45 (idx_main_v46 (ix2 r j)) = ix1 j := funext fun a => Fin.ext (by
    match a with
    | ⟨0, _⟩ => rfl)
  simp only [el, er, eb]
  rfl

/-- Layer 2's projection: the hidden activations times the weights. -/
theorem v49_eq : val_main_v49 (F := Ideal) x0 x1 x2 x3 x4 = dense (val_main_v48 (F := Ideal) x0 x1 x2 x3) x4 := by
  funext i
  obtain ⟨r, j, rfl⟩ : ∃ (r : Fin 50000) (j : Fin 128), i = ix2 r j := ⟨i 0, i 1, eq_ix2 i⟩
  rw [val_main_v49_apply]
  have el : ∀ k : Fin 512, lidx_main_v49 (ix2 r j) k = ix2 r k := fun k => funext fun a => Fin.ext (by
    match a with
    | ⟨0, _⟩ => rfl
    | ⟨1, _⟩ => rfl)
  have er : ∀ k : Fin 512, ridx_main_v49 (ix2 r j) k = ix2 k j := fun k => funext fun a => Fin.ext (by
    match a with
    | ⟨0, _⟩ => rfl
    | ⟨1, _⟩ => rfl)
  simp only [el, er]
  rfl

/-- The output stage: the second aggregation plus the bias along the rows, clamped at zero. -/
theorem v65_eq : val_main_v65 (F := Ideal) x0 x1 x2 x3 x4 x5 = biasRelu (val_main_v61 (F := Ideal) x0 x1 x2 x3 x4) x5 := by
  funext i
  obtain ⟨r, j, rfl⟩ : ∃ (r : Fin 50000) (j : Fin 128), i = ix2 r j := ⟨i 0, i 1, eq_ix2 i⟩
  rw [val_main_v65_apply, val_main_v64_apply, val_main_v63_apply, val_main_v62_apply, val_main_call2_v0_apply, val_main_call2_cst_apply]
  have eb : idx_main_v62 (idx_main_v63 (ix2 r j)) = ix1 j := funext fun a => Fin.ext (by
    match a with
    | ⟨0, _⟩ => rfl)
  simp only [eb]
  rfl

end Cert.ReferenceIdeal.RefValue

end
-- ==== Proof.KernelValue.lean ====
/-
  The idealized kernel's result as one function of the arguments.

  The run's fold of buffer contents is followed from the launch to the return: the first aggregation (host), layer 1 on
  25 row tiles (region 0), layer 2's projection on 25 row tiles (region 1), the second aggregation (host), the output
  stage on 25 row tiles (region 2). Each region's result array is the whole-array function of `Spec` of the arrays it
  finds; each host stretch applies the reference's own operations. Substituting stage by stage, the result array ends
  at the reference's last stage `val_main_v65` of the arguments.
-/
import proofs.«133054_j75488345194658_1_alg».proof.Proof.KernelRun
import proofs.«133054_j75488345194658_1_alg».proof.Proof.Tile0
import proofs.«133054_j75488345194658_1_alg».proof.Proof.Tile1
import proofs.«133054_j75488345194658_1_alg».proof.Proof.Tile2
import proofs.«133054_j75488345194658_1_alg».proof.Proof.HostChain
import proofs.«133054_j75488345194658_1_alg».proof.Proof.RefValue
import Idealize.ShloMosaic.Lib.ValueLayout

set_option maxRecDepth 16384

noncomputable section

namespace Cert.KernelIdeal.Whole

open Cert.KernelIdeal Cert.KernelIdeal.Gen Cert.KernelIdeal.Chain Cert.ReferenceIdeal.ReadP Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first layer's bias, which region 0 finds as a one-row array, read back as the argument vector. -/
theorem bias1 (c : Dev nD) : rowVec (V3 m ρ c main_v44) = (m ((c.tc : Thread nD τ).loc main_arg3)) := by
  funext i
  obtain ⟨j, rfl⟩ : ∃ j : Fin 512, i = ix1 j := ⟨i 0, eq_ix1 i⟩
  rw [rowVec_apply]
  have e : V3 m ρ c main_v44 = shapeCast S1x512 (m ((c.tc : Thread nD τ).loc main_arg3)) shapeCasts_S512_S1x512 := W3_v44 m ρ c
  rw [e]
  exact shapeCast_a_1a_apply _ _ 0 j

/-- The second layer's bias, which region 2 finds as a one-row array, read back as the argument vector. -/
theorem bias2 (c : Dev nD) : rowVec (V6 m ρ c main_v59) = (m ((c.tc : Thread nD τ).loc main_arg5)) := by
  funext i
  obtain ⟨j, rfl⟩ : ∃ j : Fin 128, i = ix1 j := ⟨i 0, eq_ix1 i⟩
  rw [rowVec_apply]
  have e : V6 m ρ c main_v59 = shapeCast S1x128 (m ((c.tc : Thread nD τ).loc main_arg5)) shapeCasts_S128_S1x128 := W6_v59 m ρ c
  rw [e]
  exact shapeCast_a_1a_apply _ _ 0 j

/-- After region 0 its result array holds the reference's hidden activations. -/
theorem hidden (c : Dev nD) :
    W4 m ρ c (Proc.devRef .tc main_v45) = val_main_v48 (F := Ideal) (m ((c.tc : Thread nD τ).loc main_arg0)) (m ((c.tc : Thread nD τ).loc main_arg1)) (m ((c.tc : Thread nD τ).loc main_arg2)) (m ((c.tc : Thread nD τ).loc main_arg3)) := by
  have e43 : V3 m ρ c main_v43 = val_main_v43 (F := Ideal) (m ((c.tc : Thread nD τ).loc main_arg0)) (m ((c.tc : Thread nD τ).loc main_arg1)) := W3_v43 m ρ c
  have e2 : V3 m ρ c main_arg2 = (m ((c.tc : Thread nD τ).loc main_arg2)) := W3_arg2 m ρ c
  have e44 := bias1 m ρ c
  have hfin : W4 m ρ c (Proc.devRef .tc main_v45) = Tile0.result (V3 m ρ) c := (W4_arr m ρ c 3).trans (Tile0.final (V3 m ρ) c)
  rw [hfin, Cert.ReferenceIdeal.RefValue.v48_eq]
  show denseBiasRelu (V3 m ρ c main_v43) (V3 m ρ c main_arg2) (rowVec (V3 m ρ c main_v44)) = _
  rw [e43, e2, e44]

/-- After region 1 its result array holds the reference's projected activations. -/
theorem projected (c : Dev nD) :
    W5 m ρ c (Proc.devRef .tc main_v46) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e45 : V4 m ρ c main_v45 = val_main_v48 (F := Ideal) (m ((c.tc : Thread nD τ).loc main_arg0)) (m ((c.tc : Thread nD τ).loc main_arg1)) (m ((c.tc : Thread nD τ).loc main_arg2)) (m ((c.tc : Thread nD τ).loc main_arg3)) := hidden m ρ c
  have e4 : V4 m ρ c main_arg4 = (m ((c.tc : Thread nD τ).loc main_arg4)) := W4_arg4 m ρ c
  have hfin : W5 m ρ c (Proc.devRef .tc main_v46) = Tile1.result (V4 m ρ) c := (W5_arr m ρ c 2).trans (Tile1.final (V4 m ρ) c)
  rw [hfin, Cert.ReferenceIdeal.RefValue.v49_eq]
  show dense (V4 m ρ c main_v45) (V4 m ρ c main_arg4) = _
  rw [e45, e4]

/-- After region 2 the result array holds the reference's result. -/
theorem output (c : Dev nD) :
    W7 m ρ c (Proc.devRef .tc main_v60) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e58 : V6 m ρ c main_v58 = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
    W6_v58 m ρ c _ _ _ _ (projected m ρ c)
  have e59 := bias2 m ρ c
  have hfin : W7 m ρ c (Proc.devRef .tc main_v60) = Tile2.result (V6 m ρ) c := (W7_arr m ρ c 2).trans (Tile2.final (V6 m ρ) c)
  rw [hfin, Cert.ReferenceIdeal.RefValue.v65_eq]
  show biasRelu (V6 m ρ c main_v58) (rowVec (V6 m ρ c main_v59)) = _
  rw [e58, e59]

/-- THE RUN, READ: every weakly fair execution of the idealized kernel ends with the result array at the reference's
    last stage of the arguments, and the arguments unchanged. -/
theorem run : θ_run defs (onTc (τ := τ) (main (F := Ideal))) ⟨m, fun _ => 0, ρ⟩ (fun r => ∀ c : Dev nD,
      r.2.mem ((c.tc : Thread nD τ).loc main_v60) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (output m ρ c), (h c).2⟩) (Cert.KernelIdeal.GenRun.run_main m ρ)

end Cert.KernelIdeal.Whole

end
-- ==== Proof.lean ====
/-
  A two-layer graph convolution, `relu (Â (relu (Â X W1 + b1)) W2 + b2)` with `Â` the symmetrically normalised adjacency
  with self loops, computed two ways. Both programs build `Â`'s action by the same host operations (gather the source
  rows, scale by `deg^(-1/2)[src] · deg^(-1/2)[dst]`, scatter-add into the destination rows). The reference then applies
  the dense stages to whole 50000-row arrays; the kernel applies them in three pallas_calls, each over 25 row tiles of
  2000 rows, with the matrix operands rounded to bf16 on the way into the MXU.

  Over the extended reals the rounding is the identity and a product into a zero accumulator is the plain sum over the
  contracted axis, and every dense stage acts row by row. So each region's result array is one whole-array function of
  what it reads (Proof/Tile0, Tile1, Tile2 over Proof/Spec), the reference's stages are the same functions
  (Proof/RefValue), the host stretches are the reference's own stages (Proof/HostChain), and the kernel's result is
  the reference's last stage of the arguments (Proof/KernelValue). No algebraic law beyond that is needed, and the
  precondition is not used: the two sides are the same sums in the same order.

  The three frames: the kernel's two are the generated frame certificates; the reference's is its run with the result
  dropped. The idealization rewrote nothing, so `preserves` is trivial.
-/
import proofs.«133054_j75488345194658_1_alg».proof.Defs
import proofs.«133054_j75488345194658_1_alg».proof.Proof.Gen.Kernel
import proofs.«133054_j75488345194658_1_alg».proof.Proof.Gen.Kernel.Skeleton
import proofs.«133054_j75488345194658_1_alg».proof.Proof.Gen.Kernel.Launch
import proofs.«133054_j75488345194658_1_alg».proof.Proof.Gen.Kernel.Points
import proofs.«133054_j75488345194658_1_alg».proof.Proof.Gen.Kernel.Frame
import proofs.«133054_j75488345194658_1_alg».proof.Proof.Gen.KernelIdeal
import proofs.«133054_j75488345194658_1_alg».proof.Proof.Gen.KernelIdeal.Skeleton
import proofs.«133054_j75488345194658_1_alg».proof.Proof.Gen.KernelIdeal.Launch
import proofs.«133054_j75488345194658_1_alg».proof.Proof.Gen.KernelIdeal.Points
import proofs.«133054_j75488345194658_1_alg».proof.Proof.Gen.KernelIdeal.Frame
import proofs.«133054_j75488345194658_1_alg».proof.Proof.Gen.ReferenceIdeal
import proofs.«133054_j75488345194658_1_alg».proof.Proof.Gen.Pre_finite_inputs
import proofs.«133054_j75488345194658_1_alg».proof.Proof.RefRun
import proofs.«133054_j75488345194658_1_alg».proof.Proof.RefRead
import proofs.«133054_j75488345194658_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at the reference's last stage of the (agreeing) arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v65_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
